-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16x4 : Shape := ⟨3, ![131072, 16, 4]⟩
abbrev S131072 : Shape := ⟨1, ![131072]⟩
abbrev S_ : Shape := ⟨0, ![]⟩

class Facts : Prop where
  bcast_S_S131072x16x4 : S_.BroadcastsInDim S131072x16x4 (![] : Fin 0 → Fin S131072x16x4.rank)
  reducesTo_S131072x16x4_S_d0_1_2 : S131072x16x4.ReducesTo [0, 1, 2] S_
  h_S_ : 0 < S_.numel
  bcast_S_S131072 : S_.BroadcastsInDim S131072 (![] : Fin 0 → Fin S131072.rank)
  reducesTo_S131072_S_d0 : S131072.ReducesTo [0] S_

variable [Facts]

def fn_part1 {F : FTy → Type} [FloatOps F] (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  main_v18

def fn {F : FTy → Type} [FloatOps F] (main_arg0 : FVec F S131072x16x4 .f32) (main_arg1 : FVec F S131072x16x4 .f32) (main_arg2 : FVec F S131072 .f32) (main_arg3 : FVec F S131072 .f32) : IVec S_ 1 :=
  let main_v0 : FVec F S131072x16x4 .f32 := Host.absf main_arg0
  let main_cst : FVec F S_ .f32 := constant S_ .f32 0x7F800000#32
  let main_v1 : FVec F S131072x16x4 .f32 := broadcastInDim S131072x16x4 ![] bcast_S_S131072x16x4 main_cst
  let main_v2 : IVec S131072x16x4 1 := cmpf .olt main_v0 main_v1
  let main_c : IVec S_ 1 := constantI S_ 1 1#1
  let main_v3 : IVec S_ 1 := (fun x v => Host.reduce IntOp.andi x v reducesTo_S131072x16x4_S_d0_1_2 h_S_) main_v2 main_c
  let main_v4 : FVec F S131072x16x4 .f32 := Host.absf main_arg1
  let main_cst_0 : FVec F S_ .f32 := constant S_ .f32 0x7F800000#32
  let main_v5 : FVec F S131072x16x4 .f32 := broadcastInDim S131072x16x4 ![] bcast_S_S131072x16x4 main_cst_0
  let main_v6 : IVec S131072x16x4 1 := cmpf .olt main_v4 main_v5
  let main_c_1 : IVec S_ 1 := constantI S_ 1 1#1
  let main_v7 : IVec S_ 1 := (fun x v => Host.reduce IntOp.andi x v reducesTo_S131072x16x4_S_d0_1_2 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_v13 main_v16
-- ==== Kernel.lean ====
abbrev S131072x16x4 : Shape := ⟨3, ![131072, 16, 4]⟩
abbrev S131072 : Shape := ⟨1, ![131072]⟩
abbrev S8192x16x64 : Shape := ⟨3, ![8192, 16, 64]⟩
abbrev S8192x16 : Shape := ⟨2, ![8192, 16]⟩
abbrev S8192x1 : Shape := ⟨2, ![8192, 1]⟩
abbrev S8192 : Shape := ⟨1, ![8192]⟩
abbrev S512x16x64 : Shape := ⟨3, ![512, 16, 64]⟩
abbrev S512x16 : Shape := ⟨2, ![512, 16]⟩
abbrev S512x1 : Shape := ⟨2, ![512, 1]⟩
abbrev S512x16x16 : Shape := ⟨3, ![512, 16, 16]⟩
abbrev S512x16x1 : Shape := ⟨3, ![512, 16, 1]⟩
abbrev S512x1x16 : Shape := ⟨3, ![512, 1, 16]⟩
abbrev S512 : Shape := ⟨1, ![512]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S131072x16x4, .f32⟩
  | .hbm, ⟨1, _⟩ => ⟨S131072x16x4, .f32⟩
  | .hbm, ⟨2, _⟩ => ⟨S131072, .f32⟩
  | .hbm, ⟨3, _⟩ => ⟨S131072, .f32⟩
  | .hbm, ⟨4, _⟩ => ⟨S8192x16x64, .f32⟩
  | .hbm, ⟨5, _⟩ => ⟨S8192x16x64, .f32⟩
  | .hbm, ⟨6, _⟩ => ⟨S8192x16, .f32⟩
  | .hbm, ⟨7, _⟩ => ⟨S8192x16, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x16x64, .f32⟩
  | .local _ .vmem, ⟨1, _⟩ => ⟨S512x16x64, .f32⟩
  | .local _ .vmem, ⟨2, _⟩ => ⟨S512x16x64, .f32⟩
  | .local _ .vmem, ⟨3, _⟩ => ⟨S512x16x64, .f32⟩
  | .local _ .vmem, ⟨4, _⟩ => ⟨S512x16, .f32⟩
  | .local _ .vmem, ⟨5, _⟩ => ⟨S512x16, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S131072x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072x16x4_S8192x16x64 : S131072x16x4.ShapeCasts S8192x16x64
  shapeCasts_S131072_S8192x16 : S131072.ShapeCasts S8192x16
  slices_S8192x16_S8192x1_0_0 : S8192x16.Slices ![0, 0] S8192x1
  shapeCasts_S8192x1_S8192 : S8192x1.ShapeCasts S8192
  shapeCasts_S8192_S8192x1 : S8192.ShapeCasts S8192x1
  inb_S512x16x64_S512x16x64_0_0_0 : ∀ a, (![0, 0, 0] : Fin 3 → Nat) a + S512x16x64.size a ≤ S512x16x64.size a
  h_S512x16x64 : 0 < S512x16x64.numel
  shapeCasts_S512x16x64_S512x16x64 : S512x16x64.ShapeCasts S512x16x64
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x16x64_S512x16 : S512x16x64.Reduces [2] S512x16
  shapeCasts_S512x16_S512x16x1 : S512x16.ShapeCasts S512x16x1
  shapeCasts_S512x16_S512x1x16 : S512x16.ShapeCasts S512x1x16
  broadcasts_S512x16x1_S512x16x16 : S512x16x1.Broadcasts S512x16x16
  broadcasts_S512x1x16_S512x16x16 : S512x1x16.Broadcasts S512x16x16
  reduces_S512x16x16_S512x16 : S512x16x16.Reduces [2] S512x16
  reduces_S512x16_S512 : S512x16.Reduces [1] S512
  shapeCasts_S512_S512x1 : S512.ShapeCasts S512x1
  reducesTo_S8192x1_S_d0_1 : S8192x1.ReducesTo [0, 1] S_
  h_S_ : 0 < S_.numel
  dot_S512x16x64_S512x16x64_S512x16x16_2_2_1_1_0_0_wf : DotDims.WF S512x16x64 S512x16x64 S512x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x64.size a ≤ S8192x16x64.size a
  hwx0_0 : ∀ i : grid0.Coords, EltTy.bits .f32 = 32 ∨ (Rect.block (s := S8192x16x64) S512x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x64.size a ≤ S8192x16x64.size a
  hwx0_1 : ∀ i : grid0.Coords, EltTy.bits .f32 = 32 ∨ (Rect.block (s := S8192x16x64) S512x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S8192x16.size a
  hwx0_2 : ∀ i : grid0.Coords, EltTy.bits .f32 = 32 ∨ (Rect.block (s := S8192x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf

abbrev win0_0 : Pipeline.Window sig grid0 :=
  Pipeline.Window.ofSpec (Memref.whole main_v0) S512x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x16x4 : Shape := ⟨3, ![131072, 16, 4]⟩
abbrev S131072 : Shape := ⟨1, ![131072]⟩
abbrev S8192x16x64 : Shape := ⟨3, ![8192, 16, 64]⟩
abbrev S8192x16 : Shape := ⟨2, ![8192, 16]⟩
abbrev S8192x1 : Shape := ⟨2, ![8192, 1]⟩
abbrev S8192 : Shape := ⟨1, ![8192]⟩
abbrev S8192x16x1x64 : Shape := ⟨4, ![8192, 16, 1, 64]⟩
abbrev S8192x1x16x64 : Shape := ⟨4, ![8192, 1, 16, 64]⟩
abbrev S8192x16x16x64 : Shape := ⟨4, ![8192, 16, 16, 64]⟩
abbrev S_ : Shape := ⟨0, ![]⟩
abbrev S8192x16x16 : Shape := ⟨3, ![8192, 16, 16]⟩
abbrev S8192x16x1 : Shape := ⟨3, ![8192, 16, 1]⟩

abbrev nBuf : Space → Nat
  | .hbm => 85
  | .vmem => 0
  | .smem => 0
  | _ => 0

abbrev bufTy : (tb : Table) → Fin (tcTables nBuf tb) → BufTy
  | .hbm, ⟨0, _⟩ => ⟨S131072x16x4, .f32⟩
  | .hbm, ⟨1, _⟩ => ⟨S131072x16x4, .f32⟩
  | .hbm, ⟨2, _⟩ => ⟨S131072, .f32⟩
  | .hbm, ⟨3, _⟩ => ⟨S131072, .f32⟩
  | .hbm, ⟨4, _⟩ => ⟨S8192x16x64, .f32⟩
  | .hbm, ⟨5, _⟩ => ⟨S8192x16x64, .f32⟩
  | .hbm, ⟨6, _⟩ => ⟨S8192x16, .f32⟩
  | .hbm, ⟨7, _⟩ => ⟨S8192x16, .f32⟩
  | .hbm, ⟨8, _⟩ => ⟨S8192x1, .f32⟩
  | .hbm, ⟨9, _⟩ => ⟨S8192, .f32⟩
  | .hbm, ⟨10, _⟩ => ⟨S8192x16x1x64, .f32⟩
  | .hbm, ⟨11, _⟩ => ⟨S8192x1x16x64, .f32⟩
  | .hbm, ⟨12, _⟩ => ⟨S8192x16x16x64, .f32⟩
  | .hbm, ⟨13, _⟩ => ⟨S8192x16x16x64, .f32⟩
  | .hbm, ⟨14, _⟩ => ⟨S8192x16x16x64, .f32⟩
  | .hbm, ⟨15, _⟩ => ⟨S8192x16x16x64, .f32⟩
  | .hbm, ⟨16, _⟩ => ⟨S_, .f32⟩
  | .hbm, ⟨17, _⟩ => ⟨S8192x16x16, .f32⟩
  | .hbm, ⟨18, _⟩ => ⟨S8192x16x16, .f32⟩
  | .hbm, ⟨19, _⟩ => ⟨S_, .f32⟩
  | .hbm, ⟨20, _⟩ => ⟨S8192x16x16, .f32⟩
  | .hbm, ⟨21, _⟩ => ⟨S8192x16x16, .f32⟩
  | .hbm, ⟨22, _⟩ => ⟨S8192x16x1, .f32⟩
  | .hbm, ⟨23, _⟩ => ⟨S8192x16x1, .f32⟩
  | .hbm, ⟨24, _⟩ => ⟨S8192x16x16, .f32⟩
  | .hbm, ⟨25, _⟩ => ⟨S8192x16x16, .f32⟩
  | .hbm, ⟨26, _⟩ => ⟨S_, .f32⟩
  | .hbm, ⟨27, _⟩ => ⟨S8192x16x16, .f32⟩
  | .hbm, ⟨28, _⟩ => ⟨S8192x16x16, .f32⟩
  | .hbm, ⟨29, _⟩ => ⟨S8192x16x16, .f32⟩
  | .hbm, ⟨30, _⟩ => ⟨S8192x16x1x64, .f32⟩
  | .hbm, ⟨31, _⟩ => ⟨S8192x1x16x64, .f32⟩
  | .hbm, ⟨32, _⟩ => ⟨S8192x16x16x64, .f32⟩
  | .hbm, ⟨33, _⟩ => ⟨S8192x16x16x64, .f32⟩
  | .hbm, ⟨34, _⟩ => ⟨S8192x16x16x64, .f32⟩
  | .hbm, ⟨35, _⟩ => ⟨S8192x16x16x64, .f32⟩
  | .hbm, ⟨36, _⟩ => ⟨S_, .f32⟩
  | .hbm, ⟨37, _⟩ => ⟨S8192x16x16, .f32⟩
  | .hbm, ⟨38, _⟩ => ⟨S8192x16x16, .f32⟩
  | .hbm, ⟨39, _⟩ => ⟨S_, .f32⟩
  | .hbm, ⟨40, _⟩ => ⟨S8192x16x16, .f32⟩
  | .hbm, ⟨41, _⟩ => ⟨S8192x16x16, .f32⟩
  | .hbm, ⟨42, _⟩ => ⟨S8192x16x1, .f32⟩
  | .hbm, ⟨43, _⟩ => ⟨S8192x16x1, .f32⟩
  | .hbm, ⟨44, _⟩ => ⟨S8192x16x16, .f32⟩
  | .hbm, ⟨45, _⟩ => ⟨S8192x16x16, .f32⟩
  | .hbm, ⟨46, _⟩ => ⟨S_, .f32⟩
  | .hbm, ⟨47, _⟩ => ⟨S8192x16x16, .f32⟩
  | .hbm, ⟨48, _⟩ => ⟨S8192x16x16, .f32⟩
  | .hbm, ⟨49, _⟩ => ⟨S8192x16x16, .f32⟩
  | .hbm, ⟨50, _⟩ => ⟨S8192x16x16, .f32⟩
  | .hbm, ⟨51, _⟩ => ⟨S8192x16x1x64, .f32⟩
  | .hbm, ⟨52, _⟩ => ⟨S8192x1x16x64, .f32⟩
  | .hbm, ⟨53, _⟩ => ⟨S8192x16x16x64, .f32⟩
  | .hbm, ⟨54, _⟩ => ⟨S8192x16x16x64, .f32⟩
  | .hbm, ⟨55, _⟩ => ⟨S8192x16x16x64, .f32⟩
  | .hbm, ⟨56, _⟩ => ⟨S8192x16x16x64, .f32⟩
  | .hbm, ⟨57, _⟩ => ⟨S_, .f32⟩
  | .hbm, ⟨58, _⟩ => ⟨S8192x16x16, .f32⟩
  | .hbm, ⟨59, _⟩ => ⟨S8192x16x16, .f32⟩
  | .hbm, ⟨60, _⟩ => ⟨S_, .f32⟩
  | .hbm, ⟨61, _⟩ => ⟨S8192x16x16, .f32⟩
  | .hbm, ⟨62, _⟩ => ⟨S8192x16x16, .f32⟩
  | .hbm, ⟨63, _⟩ => ⟨S8192x16x1, .f32⟩
  | .hbm, ⟨64, _⟩ => ⟨S8192x16x1, .f32⟩
  | .hbm, ⟨65, _⟩ => ⟨S8192x16x16, .f32⟩
  | .hbm, ⟨66, _⟩ => ⟨S8192x16x16, .f32⟩
  | .hbm, ⟨67, _⟩ => ⟨S_, .f32⟩
  | .hbm, ⟨68, _⟩ => ⟨S8192x16x16, .f32⟩
  | .hbm, ⟨69, _⟩ => ⟨S8192x16x16, .f32⟩
  | .hbm, ⟨70, _⟩ => ⟨S8192x16x16, .f32⟩
  | .hbm, ⟨71, _⟩ => ⟨S_, .f32⟩
  | .hbm, ⟨72, _⟩ => ⟨S8192x16x16, .f32⟩
  | .hbm, ⟨73, _⟩ => ⟨S8192x16x16, .f32⟩
  | .hbm, ⟨74, _⟩ => ⟨S8192x16x16, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S131072x16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  shapeCasts_S131072x16x4_S8192x16x64 : S131072x16x4.ShapeCasts S8192x16x64
  shapeCasts_S131072_S8192x16 : S131072.ShapeCasts S8192x16
  slices_S8192x16_S8192x1_0_0 : S8192x16.Slices ![0, 0] S8192x1
  shapeCasts_S8192x1_S8192 : S8192x1.ShapeCasts S8192
  bcast_S8192x16x64_S8192x16x1x64_0_1_3 : S8192x16x64.BroadcastsInDim S8192x16x1x64 (![0, 1, 3] : Fin 3 → Fin S8192x16x1x64.rank)
  bcast_S8192x16x64_S8192x1x16x64_0_2_3 : S8192x16x64.BroadcastsInDim S8192x1x16x64 (![0, 2, 3] : Fin 3 → Fin S8192x1x16x64.rank)
  bcast_S8192x16x1x64_S8192x16x16x64_0_1_2_3 : S8192x16x1x64.BroadcastsInDim S8192x16x16x64 (![0, 1, 2, 3] : Fin 4 → Fin S8192x16x16x64.rank)
  bcast_S8192x1x16x64_S8192x16x16x64_0_1_2_3 : S8192x1x16x64.BroadcastsInDim S8192x16x16x64 (![0, 1, 2, 3] : Fin 4 → Fin S8192x16x16x64.rank)
  reducesTo_S8192x16x16x64_S8192x16x16_d3 : S8192x16x16x64.ReducesTo [3] S8192x16x16
  h_S_ : 0 < S_.numel
  bcast_S_S8192x16x16 : S_.BroadcastsInDim S8192x16x16 (![] : Fin 0 → Fin S8192x16x16.rank)
  bcast_S8192x16_S8192x16x1_0_1 : S8192x16.BroadcastsInDim S8192x16x1 (![0, 1] : Fin 2 → Fin S8192x16x1.rank)
  bcast_S8192x16x1_S8192x16x16_0_1_2 : S8192x16x1.BroadcastsInDim S8192x16x16 (![0, 1, 2] : Fin 3 → Fin S8192x16x16.rank)
  reducesTo_S8192x16x16_S8192_d1_2 : S8192x16x16.ReducesTo [1, 2] S8192
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The loss both programs compute, as plain functions on the extended reals.

  For one group of sixteen particles with rows `x i`, `y i : Fin 64 → EReal`, scales `w i` and a time weight
  `tw`, each ordered pair (i, j) contributes three Laplace kernels `exp (-(w i) · max (dist, ε) / 64)` — of
  (x i, x j), of (y i, y j) and of (x i, y j) — combined as `Lxx + Lyy - 2 · Lxy`; the group's value is the
  sum over all pairs times `tw`, and the loss is the mean of the groups' values over the 8192 groups and the
  256 pairs.

  The two programs spell this differently:
  * the distance: `√(max (|a|² + |b|² - 2·⟨a, b⟩, 0))` (first form) against `√(Σ (a - b)²)` (second form);
  * the scale: a product with the word of 1/64 against a quotient by the word of 64;
  * the sign: `0 - w` against `-w`;
  * the mean: one quotient by 2097152 of the whole sum, against a quotient by 256 in every group and one by
    8192 of their sum.
  Over real (finite) data the two spellings are one number: `|a|² + |b|² - 2⟨a, b⟩ = Σ (a - b)² ≥ 0`, a quotient
  by a non-zero real is the product with its inverse, and a real factor moves across a finite sum of reals.
  The constants are kept as the words the programs print; their values are computed once, here.
-/
import Idealize.ShloMosaic.PureOps.Ideal
import Idealize.ShloMosaic.PureOps.Ideal.Laws

noncomputable section

namespace Cert.Loss

open Idealize.ShloMosaic

/-- The word of `+0.0`. -/
def Z : EReal := Ideal.ofBits .f32 0x00000000#32
/-- The word of `2.0`. -/
def two : EReal := Ideal.ofBits .f32 0x40000000#32
/-- The word of the distance floor `ε` (the float nearest 0.006). -/
def eps : EReal := Ideal.ofBits .f32 0x3BC49BA6#32
/-- The word of `1/64`. -/
def c64inv : EReal := Ideal.ofBits .f32 0x3C800000#32
/-- The word of `64`. -/
def c64 : EReal := Ideal.ofBits .f32 0x42800000#32
/-- The word of `256`. -/
def c256 : EReal := Ideal.ofBits .f32 0x43800000#32
/-- The word of `8192`. -/
def c8192 : EReal := Ideal.ofBits .f32 0x46000000#32
/-- The word of `2097152 = 256 · 8192`. -/
def c2097152 : EReal := Ideal.ofBits .f32 0x4A000000#32

/-- One Laplace kernel, first form: the squared distance by the norms identity, floored at zero. -/
def lapA (a b : Fin 64 → EReal) (w : EReal) : EReal :=
  Ideal.exp (((Z - w) * max (Ideal.sqrt (max (((∑ d, a d * a d) + (∑ d, b d * b d)) - two * (∑ d, a d * b d)) Z)) eps) * c64inv)

/-- One Laplace kernel, second form: the squared distance as the sum of squared differences. -/
def lapB (a b : Fin 64 → EReal) (w : EReal) : EReal :=
  Ideal.exp (Ideal.div ((-w) * max (Ideal.sqrt (Z + ∑ d, (a d - b d) * (a d - b d))) eps) c64)

/-- A group's value, first form: the sum over j, then over i, of the pair terms, times the time weight. -/
def groupA (x y : Fin 16 → Fin 64 → EReal) (w : Fin 16 → EReal) (tw : EReal) : EReal :=
  (∑ i, ∑ j, ((lapA (x i) (x j) (w i) + lapA (y i) (y j) (w i)) - two * lapA (x i) (y j) (w i))) * tw

/-- A group's value, second form: the same sum from the zero word, times the time weight, over 256. -/
def groupB (x y : Fin 16 → Fin 64 → EReal) (w : Fin 16 → EReal) (tw : EReal) : EReal :=
  Ideal.div ((Z + ∑ i, ∑ j, ((lapB (x i) (x j) (w i) + lapB (y i) (y j) (w i)) - two * lapB (x i) (y j) (w i))) * tw) c256

/-- The loss, first form: the groups' sum over 2097152. -/
def totalA (K : Fin 8192 → EReal) : EReal := Ideal.div (Z + ∑ g, K g) c2097152

/-- The loss, second form: the groups' sum over 8192. -/
def totalB (R : Fin 8192 → EReal) : EReal := Ideal.div (Z + ∑ g, R g) c8192

/-! ### The values of the constants -/

theorem Z_eq : Z = ((0 : ℝ) : EReal) := by
  unfold Z; rw [Ideal.ofBits_zero_f32]; rfl

theorem two_eq : two = ((2 : ℝ) : EReal) := by
  unfold two; simp [Ideal.ofBits, Ideal.ieee, -EReal.coe_mul]; norm_num

theorem c64inv_eq : c64inv = ((1 / 64 : ℝ) : EReal) := by
  unfold c64inv; simp [Ideal.ofBits, Ideal.ieee, -EReal.coe_mul]; norm_num

theorem c64_eq : c64 = ((64 : ℝ) : EReal) := by
  unfold c64; simp [Ideal.ofBits, Ideal.ieee, -EReal.coe_mul]; norm_num

theorem c256_eq : c256 = ((256 : ℝ) : EReal) := by
  unfold c256; simp [Ideal.ofBits, Ideal.ieee, -EReal.coe_mul]; norm_num

theorem c8192_eq : c8192 = ((8192 : ℝ) : EReal) := by
  unfold c8192; simp [Ideal.ofBits, Ideal.ieee, -EReal.coe_mul]; norm_num

theorem c2097152_eq : c2097152 = ((2097152 : ℝ) : EReal) := by
  unfold c2097152; simp [Ideal.ofBits, Ideal.ieee, -EReal.coe_mul]; norm_num

/-- The real the distance floor's word denotes: `(2^23 + 4496294) · 2^(119 - 127 - 23)`. -/
def epsR : ℝ := 12884902 * (2 : ℝ) ^ (-31 : ℤ)

theorem eps_eq : eps = ((epsR : ℝ) : EReal) := by
  unfold eps epsR; simp [Ideal.ofBits, Ideal.ieee, -EReal.coe_mul] <;> norm_num

/-! ### The embedding of the reals through a finite sum and a maximum -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-! ### One kernel over the reals -/

/-- The squared distance of two real rows. -/
def sqd (a b : Fin 64 → ℝ) : ℝ := ∑ d, (a d - b d) * (a d - b d)

theorem sqd_nonneg (a b : Fin 64 → ℝ) : 0 ≤ sqd a b :=
  Finset.sum_nonneg (fun d _ => mul_self_nonneg _)

/-- `|a|² + |b|² - 2⟨a, b⟩ = Σ (a - b)²`. -/
theorem norms_identity (a b : Fin 64 → ℝ) :
    ((∑ d, a d * a d) + (∑ d, b d * b d)) - 2 * (∑ d, a d * b d) = sqd a b := by
  unfold sqd
  rw [Finset.mul_sum, ← Finset.sum_add_distrib, ← Finset.sum_sub_distrib]
  exact Finset.sum_congr rfl (fun d _ => by ring)

/-- The Laplace kernel of two real rows at a real scale. -/
def L (a b : Fin 64 → ℝ) (w : ℝ) : ℝ :=
  Real.exp (-w * max (Real.sqrt (sqd a b)) epsR * (1 / 64))

theorem sqrt_coe_nonneg {r : ℝ} (h : 0 ≤ r) :
    Ideal.sqrt (r : EReal) = ((Real.sqrt r : ℝ) : EReal) := by
  rw [Ideal.sqrt_coe, if_neg (not_lt.mpr h)]

theorem lapA_coe (a b : Fin 64 → ℝ) (w : ℝ) :
    lapA (fun d => (a d : EReal)) (fun d => (b d : EReal)) (w : EReal) = ((L a b w : ℝ) : EReal) := by
  unfold lapA L
  rw [Z_eq, two_eq, eps_eq, c64inv_eq]
  simp only [← EReal.coe_mul, ← coe_sum, ← EReal.coe_add, ← EReal.coe_sub, ← coe_max]
  rw [norms_identity, max_eq_left (sqd_nonneg a b), sqrt_coe_nonneg (sqd_nonneg a b)]
  simp only [← EReal.coe_mul, ← coe_max]
  rw [Ideal.exp_coe, zero_sub]

theorem lapB_coe (a b : Fin 64 → ℝ) (w : ℝ) :
    lapB (fun d => (a d : EReal)) (fun d => (b d : EReal)) (w : EReal) = ((L a b w : ℝ) : EReal) := by
  unfold lapB L
  rw [Z_eq, eps_eq, c64_eq, Ideal.div_coe (by norm_num)]
  simp only [← EReal.coe_mul, ← coe_sum, ← EReal.coe_add, ← EReal.coe_sub, ← EReal.coe_neg]
  rw [zero_add]
  change Ideal.exp (((-w : ℝ) : EReal) * max (Ideal.sqrt ((sqd a b : ℝ) : EReal)) _ * _) = _
  rw [sqrt_coe_nonneg (sqd_nonneg a b)]
  simp only [← EReal.coe_mul, ← coe_max]
  rw [Ideal.exp_coe]

/-! ### One group over the reals -/

/-- The sum over all ordered pairs of `Lxx + Lyy - 2 · Lxy`. -/
def S (x y : Fin 16 → Fin 64 → ℝ) (w : Fin 16 → ℝ) : ℝ :=
  ∑ i, ∑ j, ((L (x i) (x j) (w i) + L (y i) (y j) (w i)) - 2 * L (x i) (y j) (w i))

theorem groupA_coe (x y : Fin 16 → Fin 64 → ℝ) (w : Fin 16 → ℝ) (tw : ℝ) :
    groupA (fun i d => (x i d : EReal)) (fun i d => (y i d : EReal)) (fun i => (w i : EReal)) (tw : EReal)
      = ((S x y w * tw : ℝ) : EReal) := by
  unfold groupA S
  rw [two_eq]
  simp only [lapA_coe, ← EReal.coe_mul, ← EReal.coe_add, ← EReal.coe_sub, ← coe_sum]

theorem groupB_coe (x y : Fin 16 → Fin 64 → ℝ) (w : Fin 16 → ℝ) (tw : ℝ) :
    groupB (fun i d => (x i d : EReal)) (fun i d => (y i d : EReal)) (fun i => (w i : EReal)) (tw : EReal)
      = (((0 + S x y w) * tw * (1 / 256) : ℝ) : EReal) := by
  unfold groupB S
  rw [Z_eq, two_eq, c256_eq, Ideal.div_coe (by norm_num)]
  simp only [lapB_coe, ← EReal.coe_mul, ← EReal.coe_add, ← EReal.coe_sub, ← coe_sum]

/-! ### The mean over the groups -/

theorem total_coe (s t : Fin 8192 → ℝ) :
    totalA (fun g => ((s g * t g : ℝ) : EReal))
      = totalB (fun g => (((0 + s g) * t g * (1 / 256) : ℝ) : EReal)) := by
  unfold totalA totalB
  rw [Z_eq, c2097152_eq, c8192_eq, Ideal.div_coe (by norm_num), Ideal.div_coe (by norm_num)]
  simp only [← EReal.coe_mul, ← EReal.coe_add, ← coe_sum]
  rw [EReal.coe_eq_coe_iff, ← Finset.sum_mul]
  simp only [zero_add]
  ring

/-- THE LAW: on finite data the two forms of the loss are one extended real. -/
theorem total_eq (X Y : Fin 8192 → Fin 16 → Fin 64 → EReal) (W : Fin 8192 → Fin 16 → EReal) (TW : Fin 8192 → EReal)
    (hX : ∀ g i d, X g i d ≠ ⊤ ∧ X g i d ≠ ⊥) (hY : ∀ g i d, Y g i d ≠ ⊤ ∧ Y g i d ≠ ⊥)
    (hW : ∀ g i, W g i ≠ ⊤ ∧ W g i ≠ ⊥) (hTW : ∀ g, TW g ≠ ⊤ ∧ TW g ≠ ⊥) :
    totalA (fun g => groupA (X g) (Y g) (W g) (TW g)) = totalB (fun g => groupB (X g) (Y g) (W g) (TW g)) := by
  -- the data as reals
  have hx : ∀ g, X g = fun i d => (((X g i d).toReal : ℝ) : EReal) := fun g =>
    funext fun i => funext fun d => (EReal.coe_toReal (hX g i d).1 (hX g i d).2).symm
  have hy : ∀ g, Y g = fun i d => (((Y g i d).toReal : ℝ) : EReal) := fun g =>
    funext fun i => funext fun d => (EReal.coe_toReal (hY g i d).1 (hY g i d).2).symm
  have hw : ∀ g, W g = fun i => (((W g i).toReal : ℝ) : EReal) := fun g =>
    funext fun i => (EReal.coe_toReal (hW g i).1 (hW g i).2).symm
  have ht : ∀ g, TW g = (((TW g).toReal : ℝ) : EReal) := fun g =>
    (EReal.coe_toReal (hTW g).1 (hTW g).2).symm
  -- each group's value, in both forms, is the embedding of a real
  have hA : (fun g => groupA (X g) (Y g) (W g) (TW g))
      = fun g => (((S (fun i d => (X g i d).toReal) (fun i d => (Y g i d).toReal) (fun i => (W g i).toReal)
          * (TW g).toReal : ℝ)) : EReal) := by
    funext g
    rw [hx g, hy g, hw g, ht g]
    exact groupA_coe _ _ _ _
  have hB : (fun g => groupB (X g) (Y g) (W g) (TW g))
      = fun g => ((((0 + S (fun i d => (X g i d).toReal) (fun i d => (Y g i d).toReal) (fun i => (W g i).toReal))
          * (TW g).toReal * (1 / 256) : ℝ)) : EReal) := by
    funext g
    rw [hx g, hy g, hw g, ht g]
    exact groupB_coe _ _ _ _
  rw [hA, hB]
  exact total_coe _ _

end Cert.Loss

end
-- ==== Proof.Finite.lean ====
/-
  The precondition read back: each of its four conjuncts is `all (|a| < +∞)` over one argument array, so every
  entry of every argument is a real number (neither infinity).
-/
import proofs.«134943_j44152263803555_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The rank-0 shape has exactly one index. -/
local instance subsingleton_scalar_idx : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max x (-x)` is below `+∞` is neither infinity:
    `max ⊤ (-⊤) = ⊤` and `max ⊥ (-⊥) = ⊤`, and `⊤ < ⊤` is false. -/
theorem ne_top_bot_of_abs_lt (x : EReal) (h : max x (-x) < ⊤) : x ≠ ⊤ ∧ x ≠ ⊥ := by
  constructor
  · rintro rfl; simp at h
  · rintro rfl; simp at h

/-- The element fact: the printed comparison `|x| < +∞` being 1 says `x` is a real number. -/
theorem elem_finite (x : Ideal .f32)
    (h : FloatOps.cmpf .olt (FloatOps.hostAbsf x) (Ideal.ofBits .f32 0x7F800000#32) = 1#1) : x ≠ ⊤ ∧ x ≠ ⊥ := by
  rw [ofBits_inf] at h
  apply ne_top_bot_of_abs_lt
  change BitVec.ofBool (decide (max x (-x) < ⊤)) = 1#1 at h
  by_contra hn
  simp [hn] at h

/-- One conjunct of the precondition, at any shape: if `all (|a| < +∞)`, printed as the reduction by `and` of the
    elementwise comparison against the broadcast `+∞` word, is 1, then every entry of `a` is a real number. -/
theorem all_finite {s : Shape} (a : FVec Ideal s .f32) (dims : Fin S_.rank → Fin s.rank)
    (hb : S_.BroadcastsInDim s dims) {axes : List (Fin s.rank)} (hr : s.ReducesTo axes S_) (hu : 0 < S_.numel)
    (e : Host.reduce IntOp.andi
        (cmpf .olt (Host.absf a) (broadcastInDim s dims hb (constant (F := Ideal) S_ .f32 0x7F800000#32)))
        (constantI S_ 1 1#1) hr hu ValueIdx.ix0 = 1#1) :
    ∀ i, a i ≠ ⊤ ∧ a i ≠ ⊥ := by
  intro i
  have hi := Host.reduce_andi_all _ _ hr hu _ e i
  exact elem_finite (a i) hi

/-- Under the printed precondition every entry of the four arguments is finite. -/
theorem finite_of_fn [Cert.Pre_finite_inputs.Facts] (a0 a1 : FVec Ideal S131072x16x4 .f32) (a2 a3 : FVec Ideal S131072 .f32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨all_finite a0 _ _ _ _ e0, all_finite a1 _ _ _ _ e1, all_finite a2 _ _ _ _ e2, all_finite a3 _ _ _ _ e3⟩

end Cert.FiniteInputs

end
-- ==== Proof.KBody.lean ====
/-
  What one grid point's body leaves in the output block, read at a row: row r of the block is the first form of
  the group value (Proof/Spec.lean) of row r of the four input blocks.

  The body squares and lane-sums the two 512×16×64 blocks (the squared norms), multiplies them batch by batch
  into zero accumulators (the three Gram blocks), assembles the three squared distances by two keepdims
  broadcasts each, floors, roots, floors at ε, scales by the negated per-row scale and the word of 1/64,
  exponentiates, combines, sums over the second then the first particle axis, and multiplies by the block of
  time weights.
-/
import proofs.«134943_j44152263803555_1_alg».proof.Proof.Gen.KernelIdeal.Frame
import proofs.«134943_j44152263803555_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ### Layout: the identity casts, the keepdims casts and their broadcasts -/

/-- A [512,16] block cast to [512,16,1] reads, at (r, i, u), the operand at (r, i). -/
theorem cast_col (x : FVec Ideal S512x16 .f32) (r : Fin 512) (i : Fin 16) (u : Fin 1) :
    shapeCast S512x16x1 x shapeCasts_S512x16_S512x16x1 (ix3 r i u) = x (ix2 r i) :=
  shapeCast_apply x _ _ _ (by
    have hu : u.val = 0 := by omega
    rw [Shape.rowMajor_val_two, Shape.rowMajor_val_three]
    show r.val * 16 + i.val = (r.val * 16 + i.val) * 1 + u.val
    omega)

/-- A [512,16] block cast to [512,1,16] reads, at (r, u, j), the operand at (r, j). -/
theorem cast_row (x : FVec Ideal S512x16 .f32) (r : Fin 512) (u : Fin 1) (j : Fin 16) :
    shapeCast S512x1x16 x shapeCasts_S512x16_S512x1x16 (ix3 r u j) = x (ix2 r j) :=
  shapeCast_apply x _ _ _ (by
    have hu : u.val = 0 := by omega
    rw [Shape.rowMajor_val_two, Shape.rowMajor_val_three]
    show r.val * 16 + j.val = (r.val * 1 + u.val) * 16 + j.val
    omega)

/-- A [512,16,1] block broadcast to [512,16,16] reads, at (r, i, j), the operand at (r, i, 0). -/
theorem bcast_col (x : FVec Ideal S512x16x1 .f32) (r : Fin 512) (i j : Fin 16) :
    broadcastTo S512x16x16 x broadcasts_S512x16x1_S512x16x16 (ix3 r i j) = x (ix3 r i (0 : Fin 1)) :=
  broadcastTo_apply x _ _ _ fun a => by
    match a with
    | ⟨0, _⟩ => rfl
    | ⟨1, _⟩ => rfl
    | ⟨2, _⟩ => rfl

/-- A [512,1,16] block broadcast to [512,16,16] reads, at (r, i, j), the operand at (r, 0, j). -/
theorem bcast_row (x : FVec Ideal S512x1x16 .f32) (r : Fin 512) (i j : Fin 16) :
    broadcastTo S512x16x16 x broadcasts_S512x1x16_S512x16x16 (ix3 r i j) = x (ix3 r (0 : Fin 1) j) :=
  broadcastTo_apply x _ _ _ fun a => by
    match a with
    | ⟨0, _⟩ => rfl
    | ⟨1, _⟩ => rfl
    | ⟨2, _⟩ => rfl

/-- A [512] block cast to [512,1] reads, at (r, z), the operand at r. -/
theorem cast_unit (x : FVec Ideal S512 .f32) (r : Fin 512) (z : Fin 1) :
    shapeCast S512x1 x shapeCasts_S512_S512x1 (ix2 r z) = x (ix1 r) :=
  shapeCast_apply x _ _ _ (by
    have hz : z.val = 0 := by omega
    rw [Shape.rowMajor_val_one, Shape.rowMajor_val_two]
    show r.val = r.val * 1 + z.val
    omega)

/-! ### Lane sums -/

/-- The sum over the last axis of a [512,16,64] block, at (r, i). -/
theorem sum_lane64 (src : FVec Ideal S512x16x64 .f32) (hφ : FKind.Formats .f32)
    (hacc : (0x00000000#32 : BitVec 32) = FKind.add.neutral .f32 hφ) (r : Fin 512) (i : Fin 16) :
    multiReduction .add [2] S512x16 src 0x00000000#32 reduces_S512x16x64_S512x16 hφ hacc (ix2 r i)
      = ∑ d : Fin 64, src (ix3 r i d) := by
  refine (Ideal.multiReduction_add_single src 0x00000000#32 reduces_S512x16x64_S512x16 hφ hacc (ix2 r i)).trans ?_
  refine Finset.sum_congr rfl fun d _ => congrArg src ?_
  funext a
  match a with
  | ⟨0, _⟩ => exact Fin.ext rfl
  | ⟨1, _⟩ => exact Fin.ext rfl
  | ⟨2, _⟩ => exact Fin.ext rfl

/-- The sum over the last axis of a [512,16,16] block, at (r, i). -/
theorem sum_lane16 (src : FVec Ideal S512x16x16 .f32) (hφ : FKind.Formats .f32)
    (hacc : (0x00000000#32 : BitVec 32) = FKind.add.neutral .f32 hφ) (r : Fin 512) (i : Fin 16) :
    multiReduction .add [2] S512x16 src 0x00000000#32 reduces_S512x16x16_S512x16 hφ hacc (ix2 r i)
      = ∑ j : Fin 16, src (ix3 r i j) := by
  refine (Ideal.multiReduction_add_single src 0x00000000#32 reduces_S512x16x16_S512x16 hφ hacc (ix2 r i)).trans ?_
  refine Finset.sum_congr rfl fun d _ => congrArg src ?_
  funext a
  match a with
  | ⟨0, _⟩ => exact Fin.ext rfl
  | ⟨1, _⟩ => exact Fin.ext rfl
  | ⟨2, _⟩ => exact Fin.ext rfl

/-- The sum over the last axis of a [512,16] block, at r. -/
theorem sum_row16 (src : FVec Ideal S512x16 .f32) (hφ : FKind.Formats .f32)
    (hacc : (0x00000000#32 : BitVec 32) = FKind.add.neutral .f32 hφ) (r : Fin 512) :
    multiReduction .add [1] S512 src 0x00000000#32 reduces_S512x16_S512 hφ hacc (ix1 r)
      = ∑ i : Fin 16, src (ix2 r i) := by
  refine (Ideal.multiReduction_add_single src 0x00000000#32 reduces_S512x16_S512 hφ hacc (ix1 r)).trans ?_
  refine Finset.sum_congr rfl fun d _ => congrArg src ?_
  funext a
  match a with
  | ⟨0, _⟩ => exact Fin.ext rfl
  | ⟨1, _⟩ => exact Fin.ext rfl

/-! ### The batched product: the operands' indices, axis by axis -/

theorem lhs_0 (j : S512x16x16.Idx) (k : dot_S512x16x64_S512x16x64_S512x16x16_2_2_1_1_0_0.contr.Idx) :
    (dot_S512x16x64_S512x16x64_S512x16x16_2_2_1_1_0_0.lhsIdx j k 0 : ℕ) = j 0 := by
  simp [DotDims.lhsIdx, dot_S512x16x64_S512x16x64_S512x16x16_2_2_1_1_0_0]; rfl
theorem lhs_1 (j : S512x16x16.Idx) (k : dot_S512x16x64_S512x16x64_S512x16x16_2_2_1_1_0_0.contr.Idx) :
    (dot_S512x16x64_S512x16x64_S512x16x16_2_2_1_1_0_0.lhsIdx j k 1 : ℕ) = j 1 := by
  simp [DotDims.lhsIdx, dot_S512x16x64_S512x16x64_S512x16x16_2_2_1_1_0_0]; rfl
theorem lhs_2 (j : S512x16x16.Idx) (k : dot_S512x16x64_S512x16x64_S512x16x16_2_2_1_1_0_0.contr.Idx) :
    (dot_S512x16x64_S512x16x64_S512x16x16_2_2_1_1_0_0.lhsIdx j k 2 : ℕ) = k ⟨0, by decide⟩ := by
  simp [DotDims.lhsIdx, dot_S512x16x64_S512x16x64_S512x16x16_2_2_1_1_0_0]; rfl
theorem rhs_0 (j : S512x16x16.Idx) (k : dot_S512x16x64_S512x16x64_S512x16x16_2_2_1_1_0_0.contr.Idx) :
    (dot_S512x16x64_S512x16x64_S512x16x16_2_2_1_1_0_0.rhsIdx j k 0 : ℕ) = j 0 := by
  simp [DotDims.rhsIdx, dot_S512x16x64_S512x16x64_S512x16x16_2_2_1_1_0_0]; rfl
theorem rhs_1 (j : S512x16x16.Idx) (k : dot_S512x16x64_S512x16x64_S512x16x16_2_2_1_1_0_0.contr.Idx) :
    (dot_S512x16x64_S512x16x64_S512x16x16_2_2_1_1_0_0.rhsIdx j k 1 : ℕ) = j 2 := by
  simp [DotDims.rhsIdx, dot_S512x16x64_S512x16x64_S512x16x16_2_2_1_1_0_0]; rfl
theorem rhs_2 (j : S512x16x16.Idx) (k : dot_S512x16x64_S512x16x64_S512x16x16_2_2_1_1_0_0.contr.Idx) :
    (dot_S512x16x64_S512x16x64_S512x16x16_2_2_1_1_0_0.rhsIdx j k 2 : ℕ) = k ⟨0, by decide⟩ := by
  simp [DotDims.rhsIdx, dot_S512x16x64_S512x16x64_S512x16x16_2_2_1_1_0_0]; rfl

/-- The batched product into the zero block, at (r, i, j): the inner product of row i of the left member r and row j of
    the right member r. -/
theorem gram_apply (A B : FVec Ideal S512x16x64 .f32) (r : Fin 512) (i j : Fin 16) :
    matmul dot_S512x16x64_S512x16x64_S512x16x16_2_2_1_1_0_0 (some .fp32) A B
        (constant (F := Ideal) S512x16x16 .f32 0x00000000#32) (ix3 r i j)
      = ∑ d : Fin 64, A (ix3 r i d) * B (ix3 r j d) := by
  show FloatOps.matmul _ _ A B (constant (F := Ideal) S512x16x16 .f32 0x00000000#32) (ix3 r i j) = _
  rw [Ideal.matmul_constant_zero_apply,
    ← Equiv.sum_comp (contrEquiv1 dot_S512x16x64_S512x16x64_S512x16x16_2_2_1_1_0_0 64 rfl rfl).symm]
  refine Finset.sum_congr rfl fun c _ => ?_
  have hc := contrEquiv1_symm_val dot_S512x16x64_S512x16x64_S512x16x16_2_2_1_1_0_0 64 rfl rfl c
  have hl : dot_S512x16x64_S512x16x64_S512x16x16_2_2_1_1_0_0.lhsIdx (ix3 r i j)
      ((contrEquiv1 dot_S512x16x64_S512x16x64_S512x16x16_2_2_1_1_0_0 64 rfl rfl).symm c) = ix3 r i c := by
    funext ax; apply Fin.ext
    match ax with
    | ⟨0, _⟩ => exact lhs_0 _ _
    | ⟨1, _⟩ => exact lhs_1 _ _
    | ⟨2, _⟩ => exact (lhs_2 _ _).trans hc
  have hr : dot_S512x16x64_S512x16x64_S512x16x16_2_2_1_1_0_0.rhsIdx (ix3 r i j)
      ((contrEquiv1 dot_S512x16x64_S512x16x64_S512x16x16_2_2_1_1_0_0 64 rfl rfl).symm c) = ix3 r j c := by
    funext ax; apply Fin.ext
    match ax with
    | ⟨0, _⟩ => exact rhs_0 _ _
    | ⟨1, _⟩ => exact rhs_1 _ _
    | ⟨2, _⟩ => exact (rhs_2 _ _).trans hc
  rw [hl, hr]

/-! ### Pointwise square root and exponential -/

theorem sqrt_apply {s : Shape} {φ : FTy} (a : FVec Ideal s φ) (i : s.Idx) :
    Idealize.ShloMosaic.sqrt a i = Ideal.sqrt (a i) := rfl
theorem exp_apply {s : Shape} {φ : FTy} (a : FVec Ideal s φ) (i : s.Idx) :
    Idealize.ShloMosaic.exp a i = Ideal.exp (a i) := rfl

/-! ### The payloads at an index -/

theorem pay1_eq (v : Vec Ideal S512x16x64 .f32) : k0_pay1 (F := Ideal) v = v := by
  unfold k0_pay1; exact shapeCast_self v _
theorem pay2_eq (v : Vec Ideal S512x16x64 .f32) : k0_pay2 (F := Ideal) v = v := by
  unfold k0_pay2; exact shapeCast_self v _
theorem pay3_eq (v : Vec Ideal S512x16 .f32) : k0_pay3 (F := Ideal) v = v := by
  unfold k0_pay3; exact shapeCast_self v _
theorem pay4_eq (v : Vec Ideal S512x1 .f32) : k0_pay4 (F := Ideal) v = v := by
  unfold k0_pay4; exact shapeCast_self v _

/-- The squared norm of row (r, i) of the first block. -/
theorem pay5_apply (v : Vec Ideal S512x16x64 .f32) (r : Fin 512) (i : Fin 16) :
    k0_pay5 (F := Ideal) v (ix2 r i) = ∑ d : Fin 64, v (ix3 r i d) * v (ix3 r i d) := by
  unfold k0_pay5
  refine (sum_lane64 _ _ _ r i).trans ?_
  rw [pay1_eq]
  rfl

/-- The squared norm of row (r, i) of the second block. -/
theorem pay6_apply (v : Vec Ideal S512x16x64 .f32) (r : Fin 512) (i : Fin 16) :
    k0_pay6 (F := Ideal) v (ix2 r i) = ∑ d : Fin 64, v (ix3 r i d) * v (ix3 r i d) := by
  unfold k0_pay6
  refine (sum_lane64 _ _ _ r i).trans ?_
  rw [pay2_eq]
  rfl

/-- A squared-distance block assembled from two norm blocks and a product block, at (r, i, j). -/
theorem dist_apply (na nb : FVec Ideal S512x16 .f32) (g : FVec Ideal S512x16x16 .f32) (r : Fin 512) (i j : Fin 16) :
    subf (addf (broadcastTo S512x16x16 (shapeCast S512x16x1 na shapeCasts_S512x16_S512x16x1) broadcasts_S512x16x1_S512x16x16)
          (broadcastTo S512x16x16 (shapeCast S512x1x16 nb shapeCasts_S512x16_S512x1x16) broadcasts_S512x1x16_S512x16x16))
        (mulf (broadcast S512x16x16 (Scalar.ofBits (F := Ideal) .f32 0x40000000#32)) g) (ix3 r i j)
      = (na (ix2 r i) + nb (ix2 r j)) - Cert.Loss.two * g (ix3 r i j) := by
  rw [subf_apply, addf_apply, mulf_apply, broadcast_apply, bcast_col, bcast_row, cast_col, cast_row]
  rfl

/-- The squared distances within the first block, by the norms identity, at (r, i, j). -/
theorem pay7_apply (v : Vec Ideal S512x16x64 .f32) (r : Fin 512) (i j : Fin 16) :
    k0_pay7 (F := Ideal) v (ix3 r i j)
      = ((∑ d : Fin 64, v (ix3 r i d) * v (ix3 r i d)) + (∑ d : Fin 64, v (ix3 r j d) * v (ix3 r j d)))
        - Cert.Loss.two * ∑ d : Fin 64, v (ix3 r i d) * v (ix3 r j d) := by
  unfold k0_pay7
  refine (dist_apply _ _ _ r i j).trans ?_
  rw [pay5_apply, pay5_apply, gram_apply, pay1_eq]

/-- The squared distances within the second block, at (r, i, j). -/
theorem pay8_apply (v : Vec Ideal S512x16x64 .f32) (r : Fin 512) (i j : Fin 16) :
    k0_pay8 (F := Ideal) v (ix3 r i j)
      = ((∑ d : Fin 64, v (ix3 r i d) * v (ix3 r i d)) + (∑ d : Fin 64, v (ix3 r j d) * v (ix3 r j d)))
        - Cert.Loss.two * ∑ d : Fin 64, v (ix3 r i d) * v (ix3 r j d) := by
  unfold k0_pay8
  refine (dist_apply _ _ _ r i j).trans ?_
  rw [pay6_apply, pay6_apply, gram_apply, pay2_eq]

/-- The squared distances between the two blocks, at (r, i, j). -/
theorem pay9_apply (v w : Vec Ideal S512x16x64 .f32) (r : Fin 512) (i j : Fin 16) :
    k0_pay9 (F := Ideal) v w (ix3 r i j)
      = ((∑ d : Fin 64, v (ix3 r i d) * v (ix3 r i d)) + (∑ d : Fin 64, w (ix3 r j d) * w (ix3 r j d)))
        - Cert.Loss.two * ∑ d : Fin 64, v (ix3 r i d) * w (ix3 r j d) := by
  unfold k0_pay9
  refine (dist_apply _ _ _ r i j).trans ?_
  rw [pay5_apply, pay6_apply, gram_apply, pay1_eq, pay2_eq]

/-- The zero block reads the zero word. -/
theorem pay10_apply (y : S512x16x16.Idx) : (k0_pay10 (F := Ideal)) y = Cert.Loss.Z := rfl

/-- The negated per-row scale, broadcast along the second particle axis, at (r, i, j). -/
theorem negw_apply (w : FVec Ideal S512x16 .f32) (r : Fin 512) (i j : Fin 16) :
    broadcastTo S512x16x16
        (subf (broadcast S512x16x1 (Scalar.ofBits (F := Ideal) .f32 0x00000000#32))
          (shapeCast S512x16x1 w shapeCasts_S512x16_S512x16x1)) broadcasts_S512x16x1_S512x16x16 (ix3 r i j)
      = Cert.Loss.Z - w (ix2 r i) := by
  rw [bcast_col, subf_apply, broadcast_apply, cast_col]
  rfl

/-- One kernel block at (r, i, j): floor at the second operand, root, floor at ε, scale, exponentiate. -/
theorem lap_apply (w : FVec Ideal S512x16 .f32) (q f : FVec Ideal S512x16x16 .f32) (r : Fin 512) (i j : Fin 16) :
    Idealize.ShloMosaic.exp (mulf (mulf
        (broadcastTo S512x16x16
          (subf (broadcast S512x16x1 (Scalar.ofBits (F := Ideal) .f32 0x00000000#32))
            (shapeCast S512x16x1 w shapeCasts_S512x16_S512x16x1)) broadcasts_S512x16x1_S512x16x16)
        (maximumf (Idealize.ShloMosaic.sqrt (maximumf q f))
          (broadcast S512x16x16 (Scalar.ofBits (F := Ideal) .f32 0x3BC49BA6#32))))
        (broadcast S512x16x16 (Scalar.ofBits (F := Ideal) .f32 0x3C800000#32))) (ix3 r i j)
      = Ideal.exp (((Cert.Loss.Z - w (ix2 r i))
          * max (Ideal.sqrt (max (q (ix3 r i j)) (f (ix3 r i j)))) Cert.Loss.eps) * Cert.Loss.c64inv) := by
  rw [exp_apply, mulf_apply, mulf_apply, negw_apply, maximumf_apply, sqrt_apply, maximumf_apply, broadcast_apply,
    broadcast_apply]
  rfl

/-- The body's last payload at (r, z), over any six operands. -/
theorem pay11_apply (w : FVec Ideal S512x16 .f32) (tw : FVec Ideal S512x1 .f32) (qxx qyy qxy f : FVec Ideal S512x16x16 .f32)
    (r : Fin 512) (z : Fin 1) :
    k0_pay11 (F := Ideal) w tw qxx qyy qxy f (ix2 r z)
      = (∑ i : Fin 16, ∑ j : Fin 16,
          ((Ideal.exp (((Cert.Loss.Z - w (ix2 r i))
                * max (Ideal.sqrt (max (qxx (ix3 r i j)) (f (ix3 r i j)))) Cert.Loss.eps) * Cert.Loss.c64inv)
            + Ideal.exp (((Cert.Loss.Z - w (ix2 r i))
                * max (Ideal.sqrt (max (qyy (ix3 r i j)) Cert.Loss.Z)) Cert.Loss.eps) * Cert.Loss.c64inv))
            - Cert.Loss.two * Ideal.exp (((Cert.Loss.Z - w (ix2 r i))
                * max (Ideal.sqrt (max (qxy (ix3 r i j)) Cert.Loss.Z)) Cert.Loss.eps) * Cert.Loss.c64inv)))
        * tw (ix2 r z) := by
  unfold k0_pay11
  refine (mulf_apply _ _ _).trans ?_
  refine congrArg (· * tw (ix2 r z)) ?_
  refine (cast_unit _ r z).trans ?_
  refine (sum_row16 _ _ _ r).trans ?_
  refine Finset.sum_congr rfl fun i _ => ?_
  refine (sum_lane16 _ _ _ r i).trans ?_
  refine Finset.sum_congr rfl fun j _ => ?_
  rw [subf_apply, addf_apply, mulf_apply, broadcast_apply, lap_apply, lap_apply, lap_apply]
  rfl

/-! ### From the payloads to the stored block -/

theorem zeros2 : (![0, 0] : Fin 2 → Nat) = fun _ => 0 := funext fun a => by
  match a with
  | ⟨0, _⟩ => rfl
  | ⟨1, _⟩ => rfl
theorem zeros3 : (![0, 0, 0] : Fin 3 → Nat) = fun _ => 0 := funext fun a => by
  match a with
  | ⟨0, _⟩ => rfl
  | ⟨1, _⟩ => rfl
  | ⟨2, _⟩ => rfl

/-- Row `r` of what the body stores is the group value of row `r` of its four loads. -/
theorem out_block (x0 x1 : Vec Ideal S512x16x64 .f32) (x2 : Vec Ideal S512x16 .f32) (x3 : Vec Ideal S512x1 .f32) (r : Fin 512) (z : Fin 1) :
    Gen.out0_4 (F := Ideal) x0 x1 x2 x3 (ix2 r z) = Cert.Loss.groupA (fun i d => x0 (ix3 r i d)) (fun i d => x1 (ix3 r i d))
      (fun i => x2 (ix2 r i)) (x3 (ix2 r z)) := by
  unfold Gen.out0_4
  rw [View.canon_unit_zero zeros2]
  simp only [View.ld_unit_zero (S := S512x16x64) zeros3, View.ld_unit_zero (S := S512x16) zeros2,
    View.ld_unit_zero (S := S512x1) zeros2]
  refine (pay11_apply _ _ _ _ _ _ r z).trans ?_
  rw [pay3_eq, pay4_eq]
  unfold Cert.Loss.groupA Cert.Loss.lapA
  refine congrArg (· * x3 (ix2 r z)) ?_
  refine Finset.sum_congr rfl fun i _ => Finset.sum_congr rfl fun j _ => ?_
  rw [pay7_apply, pay8_apply, pay9_apply, pay10_apply]

end Cert.KernelIdeal.Body

end
-- ==== Proof.KArray.lean ====
/-
  The kernel's run, read as a value: its scalar result is the first form of the loss (Proof/Spec.lean) of the
  rows of the arrays the region finds.

  The grid has 16 points; point t stages rows 512·t … 512·t + 511 of the two [8192,16,64] arrays, of the
  [8192,16] scales and of the [8192,1] time weights, and writes back rows 512·t … 512·t + 511 of the [8192,1]
  result. Row r of what the body stores is the group value of row r of its loads (Proof/KBody.lean), so what
  point t writes back is block t of ONE array `groupArr`: entry (g, 0) is group g's value. The sixteen blocks
  tile the result array, which therefore ends at `groupArr`. The host lines after the region sum it from the
  zero word and divide by the word of 2097152: the first form of the loss. Before the region the host only
  re-lays the arguments (three reshapes; for the time weights a reshape, the slice of column 0 and two
  reshapes), so every entry the region finds is an entry of an argument.
-/
import proofs.«134943_j44152263803555_1_alg».proof.Proof.Gen.KernelIdeal.Frame
import proofs.«134943_j44152263803555_1_alg».proof.Proof.KBody
import proofs.«134943_j44152263803555_1_alg».proof.Proof.Spec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

/-! ## The arrays the region finds, and one group's value -/

/-- The two particle arrays, the scales and the time weights as the region finds them. -/
abbrev xs (c : Dev nD) : S8192x16x64.Idx → EReal := V m c main_v0
abbrev ys (c : Dev nD) : S8192x16x64.Idx → EReal := V m c main_v1
abbrev ws (c : Dev nD) : S8192x16.Idx → EReal := V m c main_v2
abbrev tws (c : Dev nD) : S8192x1.Idx → EReal := V m c main_v6

/-- Group `g`'s value: the first form, of its sixteen rows of each array. -/
def groupVal (c : Dev nD) (g : Fin 8192) : EReal :=
  Cert.Loss.groupA (fun p d => xs m c (ix3 g p d)) (fun p d => ys m c (ix3 g p d)) (fun p => ws m c (ix2 g p)) (tws m c (ix2 g 0))

/-- The result array the region leaves: entry (g, 0) is group `g`'s value. -/
def groupArr (c : Dev nD) : S8192x1.Idx → EReal := fun i => groupVal m c ⟨(i 0).val, (i 0).isLt⟩

/-! ## Each window's block at a point is rows 512·t … of its array -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem xblk_apply (c : Dev nD) (t : Fin cfg0.N) (x : S512x16x64.Idx) (k : S8192x16x64.Idx)
    (hk0 : (k 0).val = 512 * t.val + (x 0).val) (hk1 : (k 1).val = (x 1).val) (hk2 : (k 2).val = (x 2).val) :
    (iblk m c 0 t : Vec Ideal S512x16x64 .f32) x = xs m c k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 512 + 1 * (x 0).val = (k 0).val; rw [e0, hk0]; omega
  | ⟨1, _⟩ => show win0_0.index t (1 : Fin 3) * 16 + 1 * (x 1).val = (k 1).val; rw [e1, hk1]; omega
  | ⟨2, _⟩ => show win0_0.index t (2 : Fin 3) * 64 + 1 * (x 2).val = (k 2).val; rw [e2, hk2]; omega

theorem yblk_apply (c : Dev nD) (t : Fin cfg0.N) (x : S512x16x64.Idx) (k : S8192x16x64.Idx)
    (hk0 : (k 0).val = 512 * t.val + (x 0).val) (hk1 : (k 1).val = (x 1).val) (hk2 : (k 2).val = (x 2).val) :
    (iblk m c 1 t : Vec Ideal S512x16x64 .f32) x = ys m c k := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 512 + 1 * (x 0).val = (k 0).val; rw [e0, hk0]; omega
  | ⟨1, _⟩ => show win0_1.index t (1 : Fin 3) * 16 + 1 * (x 1).val = (k 1).val; rw [e1, hk1]; omega
  | ⟨2, _⟩ => show win0_1.index t (2 : Fin 3) * 64 + 1 * (x 2).val = (k 2).val; rw [e2, hk2]; omega

theorem wblk_apply (c : Dev nD) (t : Fin cfg0.N) (x : S512x16.Idx) (k : S8192x16.Idx)
    (hk0 : (k 0).val = 512 * t.val + (x 0).val) (hk1 : (k 1).val = (x 1).val) :
    (iblk m c 2 t : Vec Ideal S512x16 .f32) x = ws m c k := by
  obtain ⟨-, -, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 512 + 1 * (x 0).val = (k 0).val; rw [e0, hk0]; omega
  | ⟨1, _⟩ => show win0_2.index t (1 : Fin 2) * 16 + 1 * (x 1).val = (k 1).val; rw [e1, hk1]; omega

theorem twblk_apply (c : Dev nD) (t : Fin cfg0.N) (x : S512x1.Idx) (k : S8192x1.Idx)
    (hk0 : (k 0).val = 512 * t.val + (x 0).val) (hk1 : (k 1).val = (x 1).val) :
    (iblk m c 3 t : Vec Ideal S512x1 .f32) x = tws m c k := by
  obtain ⟨-, -, -, -, -, -, -, -, e0, e1, -⟩ := idx_facts t
  unfold iblk
  rw [View.read_apply]
  show V m c main_v6 _ = V m c main_v6 _
  congr 1
  funext a
  apply Fin.ext
  match a with
  | ⟨0, _⟩ => show win0_3.index t (0 : Fin 2) * 512 + 1 * (x 0).val = (k 0).val; rw [e0, hk0]; omega
  | ⟨1, _⟩ => show win0_3.index t (1 : Fin 2) * 1 + 1 * (x 1).val = (k 1).val; rw [e1, hk1]; omega

/-! ## What a point writes back, the cover, the array after the run -/

/-- Row `r` of what point `t` stores is the value of group `512·t + r`. -/
theorem stored_row (c : Dev nD) (t : Fin cfg0.N) (r : Fin 512) (z : Fin 1) (g : Fin 8192) (hg : g.val = 512 * t.val + r.val) :
    out0_4 (F := Ideal) (iblk m c 0 t) (iblk m c 1 t) (iblk m c 2 t) (iblk m c 3 t) (ix2 r z) = groupVal m c g := by
  refine (Cert.KernelIdeal.Body.out_block (iblk m c 0 t) (iblk m c 1 t) (iblk m c 2 t) (iblk m c 3 t) r z).trans ?_
  unfold groupVal
  have e0 : (fun p d => (iblk m c 0 t : Vec Ideal S512x16x64 .f32) (ix3 r p d)) = fun p d => xs m c (ix3 g p d) :=
    funext fun p => funext fun d => xblk_apply m c t (ix3 r p d) (ix3 g p d) hg rfl rfl
  have e1 : (fun p d => (iblk m c 1 t : Vec Ideal S512x16x64 .f32) (ix3 r p d)) = fun p d => ys m c (ix3 g p d) :=
    funext fun p => funext fun d => yblk_apply m c t (ix3 r p d) (ix3 g p d) hg rfl rfl
  have e2 : (fun p => (iblk m c 2 t : Vec Ideal S512x16 .f32) (ix2 r p)) = fun p => ws m c (ix2 g p) :=
    funext fun p => wblk_apply m c t (ix2 r p) (ix2 g p) hg rfl
  have e3 : (iblk m c 3 t : Vec Ideal S512x1 .f32) (ix2 r z) = tws m c (ix2 g 0) :=
    twblk_apply m c t (ix2 r z) (ix2 g 0) hg (by have := z.isLt; show (0 : Nat) = z.val; omega)
  exact congr (congr (congr (congrArg Cert.Loss.groupA e0) e1) e2) e3

/-- WHAT POINT `t` WRITES BACK is block `t` of `groupArr`. -/
theorem flushed_eq (c : Dev nD) (t : Fin cfg0.N) :
    (dats m 0 c).flushed 4 t = ((cfg0.win 4).blk t).view.read (Elt Ideal) (groupArr m c) := by
  show (cfg0.win 4).cut (grid0.coords t) ((dats m 0 c).after 4 t) = _
  rw [after0_4]
  obtain ⟨-, -, -, -, -, -, -, -, -, -, e0, e1⟩ := idx_facts t
  have hN : cfg0.N = 16 := N_0
  funext j
  have hj0 : (j 0).val < 512 := (j 0).isLt
  have hj1 : (j 1).val < 1 := (j 1).isLt
  have hg : 512 * t.val + (j 0).val < 8192 := by have := t.isLt; omega
  show out0_4 (F := Ideal) (iblk m c 0 t) (iblk m c 1 t) (iblk m c 2 t) (iblk m c 3 t) j = groupArr m c (((cfg0.win 4).blk t).view.emb j)
  have ej : j = ix2 (⟨(j 0).val, hj0⟩ : Fin 512) (⟨(j 1).val, hj1⟩ : Fin 1) := funext fun a => by
    match a with
    | ⟨0, _⟩ => rfl
    | ⟨1, _⟩ => rfl
  refine (congrArg _ ej).trans ((stored_row m c t ⟨(j 0).val, hj0⟩ ⟨(j 1).val, hj1⟩ ⟨512 * t.val + (j 0).val, hg⟩ rfl).trans ?_)
  unfold groupArr
  refine congrArg (groupVal m c) (Fin.ext ?_)
  show 512 * t.val + (j 0).val = win0_4.index t (0 : Fin 2) * 512 + 1 * (j 0).val
  rw [e0]; omega

/-- An index of the result array is in point `t`'s block iff each coordinate is in the block's range on its axis. -/
theorem mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v7).slice (win0_4.rect t)).set ↔ _
  rw [View.set_slice_whole, Rect.mem_set_unit]
  exact Iff.rfl

/-- The sixteen blocks tile the result array: row `g` is in the block of point `g / 512`. -/
theorem covered (i : S8192x1.Idx) : ∃ t : Fin cfg0.N, (cfg0.win 4).flush t = true ∧ i ∈ ((cfg0.win 4).blk t).view.set := by
  have hN : cfg0.N = 16 := N_0
  have hi0 : (i 0).val < 8192 := (i 0).isLt
  have hi1 : (i 1).val < 1 := (i 1).isLt
  let t : Fin cfg0.N := ⟨(i 0).val / 512, by omega⟩
  obtain ⟨-, -, -, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1 ≤ (i 1).val ∧ (i 1).val < win0_4.index t (1 : Fin 2) * 1 + 1
    rw [e1]; omega

/-- THE RESULT ARRAY after the run is `groupArr`. -/
theorem final (c : Dev nD) : (dats m 0 c).arrAt 4 cfg0.N = groupArr m c :=
  (dats m 0 c).arrAt_eq_of_cover 4 (groupArr m c) (fun t _ => flushed_eq m c t) (covered)

/-! ## The host lines before the region: the arguments re-laid -/

theorem xs_eq (c : Dev nD) : xs m c = shapeCast S8192x16x64 (m ((c : Thread nD τ).loc main_arg0)) shapeCasts_S131072x16x4_S8192x16x64 := by
  show StableHlo.after hostOps0 (fun b => m (c, b)) (Proc.devRef .tc main_v0) = _
  after_results
  rfl

theorem ys_eq (c : Dev nD) : ys m c = shapeCast S8192x16x64 (m ((c : Thread nD τ).loc main_arg1)) shapeCasts_S131072x16x4_S8192x16x64 := by
  show StableHlo.after hostOps0 (fun b => m (c, b)) (Proc.devRef .tc main_v1) = _
  after_results
  rfl

theorem ws_eq (c : Dev nD) : ws m c = shapeCast S8192x16 (m ((c : Thread nD τ).loc main_arg2)) shapeCasts_S131072_S8192x16 := by
  show StableHlo.after hostOps0 (fun b => m (c, b)) (Proc.devRef .tc main_v2) = _
  after_results
  rfl

theorem tws_eq (c : Dev nD) : tws m c = shapeCast S8192x1 (shapeCast S8192 (extractStridedSlice S8192x1 ![0, 0]
      (shapeCast S8192x16 (m ((c : Thread nD τ).loc main_arg3)) shapeCasts_S131072_S8192x16) slices_S8192x16_S8192x1_0_0)
      shapeCasts_S8192x1_S8192) shapeCasts_S8192_S8192x1 := by
  show StableHlo.after hostOps0 (fun b => m (c, b)) (Proc.devRef .tc main_v6) = _
  after_results
  rfl

/-! ## The host lines after the region: the sum over the groups, over 2097152 -/

/-- The kernel's result: the first form of the loss of the groups' values. -/
def result (c : Dev nD) : Buf (Elt Ideal) ((c : Thread nD τ).loc main_v9) := fun _ => Cert.Loss.totalA (groupVal m c)

theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  have hA : Pipeline.withArrays (cfgs 0).spec c (V0 m c) (fun w => (dats m 0 c).arrAt w (cfgs 0).N) (Proc.devRef .tc main_v7) = groupArr m c :=
    (Pipeline.withArrays_arr spec0 launch0.win.arr_inj c _ _ 4).trans (final m c)
  rw [hA]
  funext i
  show Ideal.div (Ideal.hostReduceAdd reducesTo_S8192x1_S_d0_1 (groupArr m c) (Ideal.ofBits .f32 0x00000000#32) i) (Ideal.ofBits .f32 0x4A000000#32)
    = Cert.Loss.totalA (groupVal m c)
  rw [Ideal.hostReduceAdd_total reducesTo_S8192x1_S_d0_1 (fun b => b.elim0) (groupArr m c) _ i, sum_idx2]
  have hsum : (∑ a : Fin 8192, ∑ b : Fin 1, groupArr m c (ix2 a b)) = ∑ g : Fin 8192, groupVal m c g :=
    Finset.sum_congr rfl fun a _ => by rw [Fin.sum_univ_one]; rfl
  rw [hsum]
  rfl

/-! ## The run, read -/

/-- Every weakly fair execution of the kernel's program terminates with the result at the first form of the loss
    of the groups' values, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Arr

end
-- ==== Proof.RefSide.lean ====
/-
  The reference, read at an index: its scalar result is the second form of the loss (Proof/Spec.lean), of the
  rows of its reshaped arguments.

  Group g's rows are `x i d = (reshape arg0)[g, i, d]`, `y i d = (reshape arg1)[g, i, d]`, its scales
  `w i = (reshape arg2)[g, i]` and its time weight `(reshape arg3)[g, 0]`. Entry (g, i, j) of the pairwise
  difference tensor at d is `x i d - x j d` (two broadcasts), its squared norm the sum over d from the zero
  word; the distance, the floor, the negated scale, the quotient by 64 and the exponential are pointwise; the
  sum over the two pair axes is the double sum over i and j from the zero word.
-/
import proofs.«134943_j44152263803555_1_alg».proof.Proof.Gen.ReferenceIdeal.Read
import proofs.«134943_j44152263803555_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-! The composed index maps of the two broadcasts and the lane sum, at (g, i, j) and lane k: the row-i operand is read at
    (g, i, k), the row-j operand at (g, j, k); the scale, through its two broadcasts, at (g, i). One copy per Laplace stage. -/

theorem idx_row_i (g : Fin 8192) (i j : Fin 16) (k : Fin 64) :
    Read.idx_main_v6 (Read.idx_main_v8 (Read.idx_main_call0_v1 (ix3 g i j) k)) = ix3 g i k :=
  funext fun a => Fin.ext (by match a with | ⟨0, _⟩ => rfl | ⟨1, _⟩ => rfl | ⟨2, _⟩ => rfl)

theorem idx_row_j (g : Fin 8192) (i j : Fin 16) (k : Fin 64) :
    Read.idx_main_v7 (Read.idx_main_v9 (Read.idx_main_call0_v1 (ix3 g i j) k)) = ix3 g j k :=
  funext fun a => Fin.ext (by match a with | ⟨0, _⟩ => rfl | ⟨1, _⟩ => rfl | ⟨2, _⟩ => rfl)

theorem idx_scale (g : Fin 8192) (i j : Fin 16) :
    Read.idx_main_v14 (Read.idx_main_v16 (ix3 g i j)) = ix2 g i :=
  funext fun a => Fin.ext (by match a with | ⟨0, _⟩ => rfl | ⟨1, _⟩ => rfl)

/-- The first Laplace stage at (g, i, j): the kernel of rows i and j of the first argument, with the scale of row i. -/
theorem lap_xx (x0 : (⟨S131072x16x4, .f32⟩ : BufTy).Contents (Elt Ideal)) (x2 : (⟨S131072, .f32⟩ : BufTy).Contents (Elt Ideal))
    (g : Fin 8192) (i j : Fin 16) :
    Read.val_main_v20 (F := Ideal) x0 x2 (ix3 g i j)
      = Cert.Loss.lapB (fun d => Read.val_main_v0 (F := Ideal) x0 (ix3 g i d)) (fun d => Read.val_main_v0 (F := Ideal) x0 (ix3 g j d))
          (Read.val_main_v2 (F := Ideal) x2 (ix2 g i)) := by
  rw [Read.val_main_v20_apply, Read.val_main_v19_apply, Read.val_main_v17_apply, Read.val_main_v18_apply, Read.val_main_cst_0_apply,
    Read.val_main_v16_apply, Read.val_main_v15_apply, Read.val_main_v14_apply, Read.val_main_v13_apply, Read.val_main_v11_apply,
    Read.val_main_call0_v1_apply, Read.val_main_v12_apply, Read.val_main_cst_apply, Read.val_main_call0_cst_apply]
  simp only [Read.val_main_call0_v0_apply, Read.val_main_v10_apply, Read.val_main_v8_apply, Read.val_main_v6_apply,
    Read.val_main_v9_apply, Read.val_main_v7_apply, idx_row_i, idx_row_j, idx_scale,
    Ideal.hostUnary_exp_def, Ideal.hostUnary_sqrt_def, Ideal.hostDivf_def, Ideal.hostNegf_def, Ideal.negf_def,
    Ideal.mulf_def, Ideal.subf_def, Ideal.maximumf_def, Ideal.ofBits_def]
  rfl

theorem idx_row_i1 (g : Fin 8192) (i j : Fin 16) (k : Fin 64) :
    Read.idx_main_v21 (Read.idx_main_v23 (Read.idx_main_call1_v1 (ix3 g i j) k)) = ix3 g i k :=
  funext fun a => Fin.ext (by match a with | ⟨0, _⟩ => rfl | ⟨1, _⟩ => rfl | ⟨2, _⟩ => rfl)

theorem idx_row_j1 (g : Fin 8192) (i j : Fin 16) (k : Fin 64) :
    Read.idx_main_v22 (Read.idx_main_v24 (Read.idx_main_call1_v1 (ix3 g i j) k)) = ix3 g j k :=
  funext fun a => Fin.ext (by match a with | ⟨0, _⟩ => rfl | ⟨1, _⟩ => rfl | ⟨2, _⟩ => rfl)

theorem idx_scale1 (g : Fin 8192) (i j : Fin 16) :
    Read.idx_main_v29 (Read.idx_main_v31 (ix3 g i j)) = ix2 g i :=
  funext fun a => Fin.ext (by match a with | ⟨0, _⟩ => rfl | ⟨1, _⟩ => rfl)

theorem idx_row_i2 (g : Fin 8192) (i j : Fin 16) (k : Fin 64) :
    Read.idx_main_v37 (Read.idx_main_v39 (Read.idx_main_call2_v1 (ix3 g i j) k)) = ix3 g i k :=
  funext fun a => Fin.ext (by match a with | ⟨0, _⟩ => rfl | ⟨1, _⟩ => rfl | ⟨2, _⟩ => rfl)

theorem idx_row_j2 (g : Fin 8192) (i j : Fin 16) (k : Fin 64) :
    Read.idx_main_v38 (Read.idx_main_v40 (Read.idx_main_call2_v1 (ix3 g i j) k)) = ix3 g j k :=
  funext fun a => Fin.ext (by match a with | ⟨0, _⟩ => rfl | ⟨1, _⟩ => rfl | ⟨2, _⟩ => rfl)

theorem idx_scale2 (g : Fin 8192) (i j : Fin 16) :
    Read.idx_main_v45 (Read.idx_main_v47 (ix3 g i j)) = ix2 g i :=
  funext fun a => Fin.ext (by match a with | ⟨0, _⟩ => rfl | ⟨1, _⟩ => rfl)

/-- The second Laplace stage at (g, i, j): rows i and j of the second argument. -/
theorem lap_yy (x1 : (⟨S131072x16x4, .f32⟩ : BufTy).Contents (Elt Ideal)) (x2 : (⟨S131072, .f32⟩ : BufTy).Contents (Elt Ideal))
    (g : Fin 8192) (i j : Fin 16) :
    Read.val_main_v35 (F := Ideal) x1 x2 (ix3 g i j)
      = Cert.Loss.lapB (fun d => Read.val_main_v1 (F := Ideal) x1 (ix3 g i d)) (fun d => Read.val_main_v1 (F := Ideal) x1 (ix3 g j d))
          (Read.val_main_v2 (F := Ideal) x2 (ix2 g i)) := by
  rw [Read.val_main_v35_apply, Read.val_main_v34_apply, Read.val_main_v32_apply, Read.val_main_v33_apply, Read.val_main_cst_2_apply,
    Read.val_main_v31_apply, Read.val_main_v30_apply, Read.val_main_v29_apply, Read.val_main_v28_apply, Read.val_main_v26_apply,
    Read.val_main_call1_v1_apply, Read.val_main_v27_apply, Read.val_main_cst_1_apply, Read.val_main_call1_cst_apply]
  simp only [Read.val_main_call1_v0_apply, Read.val_main_v25_apply, Read.val_main_v23_apply, Read.val_main_v21_apply,
    Read.val_main_v24_apply, Read.val_main_v22_apply, idx_row_i1, idx_row_j1, idx_scale1,
    Ideal.hostUnary_exp_def, Ideal.hostUnary_sqrt_def, Ideal.hostDivf_def, Ideal.hostNegf_def, Ideal.negf_def,
    Ideal.mulf_def, Ideal.subf_def, Ideal.maximumf_def, Ideal.ofBits_def]
  rfl

/-- The third Laplace stage at (g, i, j): row i of the first argument against row j of the second. -/
theorem lap_xy (x0 x1 : (⟨S131072x16x4, .f32⟩ : BufTy).Contents (Elt Ideal)) (x2 : (⟨S131072, .f32⟩ : BufTy).Contents (Elt Ideal))
    (g : Fin 8192) (i j : Fin 16) :
    Read.val_main_v51 (F := Ideal) x0 x1 x2 (ix3 g i j)
      = Cert.Loss.lapB (fun d => Read.val_main_v0 (F := Ideal) x0 (ix3 g i d)) (fun d => Read.val_main_v1 (F := Ideal) x1 (ix3 g j d))
          (Read.val_main_v2 (F := Ideal) x2 (ix2 g i)) := by
  rw [Read.val_main_v51_apply, Read.val_main_v50_apply, Read.val_main_v48_apply, Read.val_main_v49_apply, Read.val_main_cst_4_apply,
    Read.val_main_v47_apply, Read.val_main_v46_apply, Read.val_main_v45_apply, Read.val_main_v44_apply, Read.val_main_v42_apply,
    Read.val_main_call2_v1_apply, Read.val_main_v43_apply, Read.val_main_cst_3_apply, Read.val_main_call2_cst_apply]
  simp only [Read.val_main_call2_v0_apply, Read.val_main_v41_apply, Read.val_main_v39_apply, Read.val_main_v37_apply,
    Read.val_main_v40_apply, Read.val_main_v38_apply, idx_row_i2, idx_row_j2, idx_scale2,
    Ideal.hostUnary_exp_def, Ideal.hostUnary_sqrt_def, Ideal.hostDivf_def, Ideal.hostNegf_def, Ideal.negf_def,
    Ideal.mulf_def, Ideal.subf_def, Ideal.maximumf_def, Ideal.ofBits_def]
  rfl

/-- The pair term at (g, i, j): the first two kernels' sum less twice the third. -/
theorem pair_term (x0 x1 : (⟨S131072x16x4, .f32⟩ : BufTy).Contents (Elt Ideal)) (x2 : (⟨S131072, .f32⟩ : BufTy).Contents (Elt Ideal))
    (g : Fin 8192) (i j : Fin 16) :
    Read.val_main_v54 (F := Ideal) x0 x1 x2 (ix3 g i j)
      = (Cert.Loss.lapB (fun d => Read.val_main_v0 (F := Ideal) x0 (ix3 g i d)) (fun d => Read.val_main_v0 (F := Ideal) x0 (ix3 g j d))
            (Read.val_main_v2 (F := Ideal) x2 (ix2 g i))
          + Cert.Loss.lapB (fun d => Read.val_main_v1 (F := Ideal) x1 (ix3 g i d)) (fun d => Read.val_main_v1 (F := Ideal) x1 (ix3 g j d))
            (Read.val_main_v2 (F := Ideal) x2 (ix2 g i)))
        - Cert.Loss.two * Cert.Loss.lapB (fun d => Read.val_main_v0 (F := Ideal) x0 (ix3 g i d)) (fun d => Read.val_main_v1 (F := Ideal) x1 (ix3 g j d))
            (Read.val_main_v2 (F := Ideal) x2 (ix2 g i)) := by
  rw [Read.val_main_v54_apply, Read.val_main_v36_apply, Read.val_main_v53_apply, Read.val_main_v52_apply, Read.val_main_cst_5_apply,
    lap_xx, lap_yy, lap_xy]
  rfl

/-- Dropping the two pair coordinates of (a, b, c) leaves the group coordinate. -/
theorem drop_pair (a : Fin 8192) (b c : Fin 16) :
    (reducesTo_S8192x16x16_S8192_d1_2).drop (ix3 a b c) = ix1 a :=
  funext fun d => Fin.ext (by match d with | ⟨0, _⟩ => rfl)

/-- The sum over the two pair axes, at group g: the initial value plus the double sum over i and j. -/
theorem pair_sum (y : S8192x16x16.Idx → EReal) (init : EReal) (g : Fin 8192) :
    Ideal.hostReduceAdd reducesTo_S8192x16x16_S8192_d1_2 y init (ix1 g) = init + ∑ i : Fin 16, ∑ j : Fin 16, y (ix3 g i j) := by
  unfold Ideal.hostReduceAdd
  refine congrArg (init + ·) ?_
  rw [← Fintype.sum_prod_type' (f := fun (i j : Fin 16) => y (ix3 g i j))]
  refine Finset.sum_nbij' (fun i => ((i 1 : Fin 16), (i 2 : Fin 16))) (fun p => ix3 g p.1 p.2) ?_ ?_ ?_ ?_ ?_
  · intro i _; exact Finset.mem_univ _
  · intro p _; exact Finset.mem_filter.2 ⟨Finset.mem_univ _, drop_pair g p.1 p.2⟩
  · intro i hi
    obtain ⟨a, b, c, rfl⟩ : ∃ (a : Fin 8192) (b c : Fin 16), i = ix3 a b c := ⟨i 0, i 1, i 2, eq_ix3 i⟩
    have hj := (Finset.mem_filter.1 hi).2
    rw [drop_pair] at hj
    have ha : a = g := congrFun hj 0
    subst ha; rfl
  · intro p _; rfl
  · intro i hi
    obtain ⟨a, b, c, rfl⟩ : ∃ (a : Fin 8192) (b c : Fin 16), i = ix3 a b c := ⟨i 0, i 1, i 2, eq_ix3 i⟩
    have hj := (Finset.mem_filter.1 hi).2
    rw [drop_pair] at hj
    have ha : a = g := congrFun hj 0
    subst ha; rfl

/-- Group g's value: the pair sum from the zero word, times the time weight, over the word of 256. -/
theorem group_val (x0 x1 : (⟨S131072x16x4, .f32⟩ : BufTy).Contents (Elt Ideal)) (x2 x3 : (⟨S131072, .f32⟩ : BufTy).Contents (Elt Ideal))
    (g : Fin 8192) :
    Read.val_main_v58 (F := Ideal) x0 x1 x2 x3 (ix1 g)
      = Cert.Loss.groupB (fun i d => Read.val_main_v0 (F := Ideal) x0 (ix3 g i d)) (fun i d => Read.val_main_v1 (F := Ideal) x1 (ix3 g i d))
          (fun i => Read.val_main_v2 (F := Ideal) x2 (ix2 g i)) (Read.val_main_v5 (F := Ideal) x3 (ix1 g)) := by
  have h55 : Read.val_main_v55 (F := Ideal) x0 x1 x2 (ix1 g)
      = Cert.Loss.Z + ∑ i : Fin 16, ∑ j : Fin 16, Read.val_main_v54 (F := Ideal) x0 x1 x2 (ix3 g i j) := by
    unfold Read.val_main_v55
    generalize Read.val_main_v54 (F := Ideal) x0 x1 x2 = y
    simp only [Host.reduceAdd, Ideal.hostReduceAdd_def]
    exact pair_sum y _ g
  rw [Read.val_main_v58_apply, Read.val_main_v56_apply, Read.val_main_v57_apply, Read.val_main_cst_7_apply, h55]
  simp only [pair_term, Ideal.hostDivf_def, Ideal.mulf_def, Ideal.ofBits_def]
  rfl

/-- A sum over the rank-1 index set of the groups is the sum over the group coordinate. -/
theorem sum_groups (f : S8192.Idx → EReal) : ∑ j : S8192.Idx, f j = ∑ g : Fin 8192, f (ix1 g) :=
  Fintype.sum_equiv (⟨fun j => j 0, fun g => ix1 g, fun j => (eq_ix1 j).symm, fun _ => rfl⟩ : S8192.Idx ≃ Fin 8192) _ _
    (fun j => congrArg f (eq_ix1 j))

/-- The reference's result, at its one index, is the second form of the loss of the reshaped arguments' rows. -/
theorem ref_total (x0 x1 : (⟨S131072x16x4, .f32⟩ : BufTy).Contents (Elt Ideal)) (x2 x3 : (⟨S131072, .f32⟩ : BufTy).Contents (Elt Ideal)) :
    Read.val_main_v60 (F := Ideal) x0 x1 x2 x3 = fun _ => Cert.Loss.totalB (fun g => Cert.Loss.groupB
      (fun i d => Read.val_main_v0 (F := Ideal) x0 (ix3 g i d)) (fun i d => Read.val_main_v1 (F := Ideal) x1 (ix3 g i d))
      (fun i => Read.val_main_v2 (F := Ideal) x2 (ix2 g i)) (Read.val_main_v5 (F := Ideal) x3 (ix1 g))) := by
  funext i0
  rw [Read.val_main_v60_apply, Read.val_main_v59_apply, Read.val_main_cst_9_apply, Read.val_main_cst_8_apply, sum_groups]
  simp only [group_val, Ideal.hostDivf_def, Ideal.ofBits_def]
  rfl

end Cert.ReferenceIdeal.RefValue

end
-- ==== Proof.lean ====
/-
  The certificate: the Pallas loss kernel and its jnp reference compute one extended real on finite inputs.

  Both programs take two [131072,16,4] particle arrays, a [131072] scale array and a [131072] time-weight array,
  regroup them as 8192 groups of 16 particles with 64 lanes, and return the mean over groups and ordered pairs
  of `(Lxx + Lyy - 2·Lxy) · tw`, where `L` is the Laplace kernel `exp (-w_i · max (dist, ε) / 64)`.

  * The kernel's program runs one region over 16 grid points of 512 groups each; its run, read as a value
    (Proof/KArray.lean over Proof/KBody.lean), ends at the first form of the loss (Proof/Spec.lean): distances by
    the norms identity, a product with 1/64, one division by 2097152 at the end.
  * The reference's run, read stage by stage (Proof/RefSide.lean), ends at the second form: distances as sums of
    squared differences, quotients by 64, by 256 in each group and by 8192 at the end.
  * Under the precondition every argument entry is a real number (Proof/Finite.lean), both programs re-lay the
    arguments the same way, and on real data the two forms agree (`Cert.Loss.total_eq`).
  The three frames are the generated frame runs (the reference's: its generated run with the result dropped);
  the idealization rewrote no operation, so there is nothing to preserve.
-/
import proofs.«134943_j44152263803555_1_alg».proof.Defs
import proofs.«134943_j44152263803555_1_alg».proof.Proof.Gen.Kernel
import proofs.«134943_j44152263803555_1_alg».proof.Proof.Gen.Kernel.Skeleton
import proofs.«134943_j44152263803555_1_alg».proof.Proof.Gen.Kernel.Launch
import proofs.«134943_j44152263803555_1_alg».proof.Proof.Gen.Kernel.Points
import proofs.«134943_j44152263803555_1_alg».proof.Proof.Gen.Kernel.Frame
import proofs.«134943_j44152263803555_1_alg».proof.Proof.Gen.KernelIdeal
import proofs.«134943_j44152263803555_1_alg».proof.Proof.Gen.KernelIdeal.Skeleton
import proofs.«134943_j44152263803555_1_alg».proof.Proof.Gen.KernelIdeal.Launch
import proofs.«134943_j44152263803555_1_alg».proof.Proof.Gen.KernelIdeal.Points
import proofs.«134943_j44152263803555_1_alg».proof.Proof.Gen.KernelIdeal.Frame
import proofs.«134943_j44152263803555_1_alg».proof.Proof.Gen.ReferenceIdeal
import proofs.«134943_j44152263803555_1_alg».proof.Proof.Gen.Pre_finite_inputs
import proofs.«134943_j44152263803555_1_alg».proof.Proof.Gen.ReferenceIdeal.Run
import proofs.«134943_j44152263803555_1_alg».proof.Proof.Gen.ReferenceIdeal.Read
import proofs.«134943_j44152263803555_1_alg».proof.Proof.Spec
import proofs.«134943_j44152263803555_1_alg».proof.Proof.Finite
import proofs.«134943_j44152263803555_1_alg».proof.Proof.KBody
import proofs.«134943_j44152263803555_1_alg».proof.Proof.KArray
import proofs.«134943_j44152263803555_1_alg».proof.Proof.RefSide
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference reshapes the particle arrays, the scales and the time weights exactly as the kernel's host lines
    do, so its rows are the rows the region finds. -/
theorem rows_x (m : (ℓ : Loc Cert.KernelIdeal.nD Cert.KernelIdeal.τ Cert.KernelIdeal.sig) → Buf (Elt Ideal) ℓ) (c : Dev Cert.KernelIdeal.nD)
    (j : Cert.KernelIdeal.S8192x16x64.Idx) :
    Cert.ReferenceIdeal.Read.val_main_v0 (F := Ideal) (m ((c.tc : Thread Cert.KernelIdeal.nD Cert.KernelIdeal.τ).loc Cert.KernelIdeal.main_arg0)) j
      = Cert.KernelIdeal.Arr.xs m c j := by
  rw [Cert.KernelIdeal.Arr.xs_eq]; rfl

theorem rows_y (m : (ℓ : Loc Cert.KernelIdeal.nD Cert.KernelIdeal.τ Cert.KernelIdeal.sig) → Buf (Elt Ideal) ℓ) (c : Dev Cert.KernelIdeal.nD)
    (j : Cert.KernelIdeal.S8192x16x64.Idx) :
    Cert.ReferenceIdeal.Read.val_main_v1 (F := Ideal) (m ((c.tc : Thread Cert.KernelIdeal.nD Cert.KernelIdeal.τ).loc Cert.KernelIdeal.main_arg1)) j
      = Cert.KernelIdeal.Arr.ys m c j := by
  rw [Cert.KernelIdeal.Arr.ys_eq]; rfl

theorem rows_w (m : (ℓ : Loc Cert.KernelIdeal.nD Cert.KernelIdeal.τ Cert.KernelIdeal.sig) → Buf (Elt Ideal) ℓ) (c : Dev Cert.KernelIdeal.nD)
    (j : Cert.KernelIdeal.S8192x16.Idx) :
    Cert.ReferenceIdeal.Read.val_main_v2 (F := Ideal) (m ((c.tc : Thread Cert.KernelIdeal.nD Cert.KernelIdeal.τ).loc Cert.KernelIdeal.main_arg2)) j
      = Cert.KernelIdeal.Arr.ws m c j := by
  rw [Cert.KernelIdeal.Arr.ws_eq]; rfl

/-- The kernel's [8192,1] time weights at (g, 0) are the reference's [8192] time weights at g. -/
theorem rows_tw (m : (ℓ : Loc Cert.KernelIdeal.nD Cert.KernelIdeal.τ Cert.KernelIdeal.sig) → Buf (Elt Ideal) ℓ) (c : Dev Cert.KernelIdeal.nD)
    (g : Fin 8192) :
    Cert.ReferenceIdeal.Read.val_main_v5 (F := Ideal) (m ((c.tc : Thread Cert.KernelIdeal.nD Cert.KernelIdeal.τ).loc Cert.KernelIdeal.main_arg3)) (ix1 g)
      = Cert.KernelIdeal.Arr.tws m c (ix2 g 0) := by
  rw [Cert.KernelIdeal.Arr.tws_eq]
  refine (shapeCast_apply (Cert.ReferenceIdeal.Read.val_main_v5 (F := Ideal) (m ((c.tc : Thread Cert.KernelIdeal.nD Cert.KernelIdeal.τ).loc Cert.KernelIdeal.main_arg3)))
    Cert.KernelIdeal.Facts₀.shapeCasts_S8192_S8192x1 (ix2 g 0) (ix1 g) ?_).symm
  rw [Shape.rowMajor_val_one, Shape.rowMajor_val_two]
  show g.val = g.val * 1 + 0
  omega

theorem algebraic : Cert.algebraic_KernelIdeal_ReferenceIdeal := by
  intro m ρ m' ρ' hpre hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.ReferenceIdeal.RefValue.ref_total]
  rw [(hagree c).1, (hagree c).2.1, (hagree c).2.2.1, (hagree c).2.2.2]
  show _ = Cert.KernelIdeal.Arr.result m c
  unfold Cert.KernelIdeal.Arr.result
  funext _
  simp only [rows_x, rows_y, rows_w, rows_tw]
  obtain ⟨f0, f1, f2, f3⟩ := Cert.FiniteInputs.finite_of_fn _ _ _ _ (hpre c)
  have hX : ∀ (g : Fin 8192) (i : Fin 16) (d : Fin 64), Cert.KernelIdeal.Arr.xs m c (ix3 g i d) ≠ ⊤ ∧ Cert.KernelIdeal.Arr.xs m c (ix3 g i d) ≠ ⊥ :=
    fun g i d => by rw [Cert.KernelIdeal.Arr.xs_eq]; exact f0 _
  have hY : ∀ (g : Fin 8192) (i : Fin 16) (d : Fin 64), Cert.KernelIdeal.Arr.ys m c (ix3 g i d) ≠ ⊤ ∧ Cert.KernelIdeal.Arr.ys m c (ix3 g i d) ≠ ⊥ :=
    fun g i d => by rw [Cert.KernelIdeal.Arr.ys_eq]; exact f1 _
  have hW : ∀ (g : Fin 8192) (i : Fin 16), Cert.KernelIdeal.Arr.ws m c (ix2 g i) ≠ ⊤ ∧ Cert.KernelIdeal.Arr.ws m c (ix2 g i) ≠ ⊥ :=
    fun g i => by rw [Cert.KernelIdeal.Arr.ws_eq]; exact f2 _
  have hT : ∀ g : Fin 8192, Cert.KernelIdeal.Arr.tws m c (ix2 g 0) ≠ ⊤ ∧ Cert.KernelIdeal.Arr.tws m c (ix2 g 0) ≠ ⊥ :=
    fun g => by rw [Cert.KernelIdeal.Arr.tws_eq]; exact f3 _
  exact (Cert.Loss.total_eq (fun g i d => Cert.KernelIdeal.Arr.xs m c (ix3 g i d)) (fun g i d => Cert.KernelIdeal.Arr.ys m c (ix3 g i d))
    (fun g i => Cert.KernelIdeal.Arr.ws m c (ix2 g i)) (fun g => Cert.KernelIdeal.Arr.tws m c (ix2 g 0)) hX hY hW hT).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
